-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S32768x1024 : Shape := ⟨2, ![32768, 1024]⟩
abbrev S32768x8 : Shape := ⟨2, ![32768, 8]⟩
abbrev S8x4096 : Shape := ⟨2, ![8, 4096]⟩
abbrev S4096x1024 : Shape := ⟨2, ![4096, 1024]⟩
abbrev S512x8 : Shape := ⟨2, ![512, 8]⟩
abbrev S512x1024 : Shape := ⟨2, ![512, 1024]⟩
abbrev S1x8 : Shape := ⟨2, ![1, 8]⟩
abbrev S512x4096 : Shape := ⟨2, ![512, 4096]⟩
abbrev S1x4096 : Shape := ⟨2, ![1, 4096]⟩
abbrev S1x1024 : Shape := ⟨2, ![1, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S32768x1024, .f32⟩
  | .hbm, ⟨7, _⟩ => ⟨S32768x8, .f32⟩
  | .hbm, ⟨8, _⟩ => ⟨S8x4096, .f32⟩
  | .hbm, ⟨9, _⟩ => ⟨S8x4096, .bf16⟩
  | .hbm, ⟨10, _⟩ => ⟨S4096x1024, .f32⟩
  | .hbm, ⟨11, _⟩ => ⟨S4096x1024, .bf16⟩
  | .hbm, ⟨12, _⟩ => ⟨S32768x1024, .f32⟩
  | .hbm, ⟨13, _⟩ => ⟨S8x4096x1024, .f32⟩
  | .local _ .vmem, ⟨0, _⟩ => ⟨S512x8, .f32⟩
  | .local _ .vmem, ⟨1, _⟩ => ⟨S512x8, .f32⟩
  | .local _ .vmem, ⟨2, _⟩ => ⟨S8, .f32⟩
  | .local _ .vmem, ⟨3, _⟩ => ⟨S8x4096, .bf16⟩
  | .local _ .vmem, ⟨4, _⟩ => ⟨S4096, .f32⟩
  | .local _ .vmem, ⟨5, _⟩ => ⟨S4096x1024, .bf16⟩
  | .local _ .vmem, ⟨6, _⟩ => ⟨S1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  slices_S32768x1024_S32768x8_0_0 : S32768x1024.Slices ![0, 0] S32768x8
  transposes_S4096x8_S8x4096_1_0 : S4096x8.Transposes [1, 0] S8x4096
  bitsLt_bf16_f32 : FTy.bits .bf16 < FTy.bits .f32
  transposes_S1024x4096_S4096x1024_1_0 : S1024x4096.Transposes [1, 0] S4096x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8_S8_0 : ∀ a, (![0] : Fin 1 → Nat) a + S8.size a ≤ S8.size a
  h_S8 : 0 < S8.numel
  shapeCasts_S8_S1x8 : S8.ShapeCasts S1x8
  broadcasts_S1x8_S512x8 : S1x8.Broadcasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S32768x1024_S8x4096x1024 : S32768x1024.ShapeCasts S8x4096x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S32768x8.size a
  hwx0_0 : ∀ i : grid0.Coords, EltTy.bits .f32 = 32 ∨ (Rect.block (s := S32768x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S1x1x8 : Shape := ⟨3, ![1, 1, 8]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x4096, .f32⟩
  | .hbm, ⟨13, _⟩ => ⟨S1x1x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.FfnRow.lean ====
/-
  The feed-forward block's value, one output element at a time.

  Every element of the result is a function of ONE token's eight encoder features, the eight angles, the
  first layer's weights and bias, ONE column of the second layer's weights and one entry of its bias:

      out = (∑ f, max ((∑ q, cos x_q · cos θ_q · W1_{q,f}) + b1_f) 0 · W2_f) + b2.

  Both programs compute exactly this sum, in this order of operations, on the extended reals; they differ
  only in how the arrays that hold x, W1 and W2 are laid out (tokens as [8, 4096] or flattened to 32768 rows;
  the weight matrices as given or transposed). `row` is the element; `rows` reads it off the flattened,
  transposed arrays the kernel's region is launched on; `tokens` reads it off the program's own arguments.
-/
import Idealize.ShloMosaic.PureOps.Ideal
import Idealize.ShloMosaic.Lib.ValueIdx

noncomputable section

namespace Cert.Ffn

open Idealize.ShloMosaic Idealize.ShloMosaic.ValueIdx

/-- One element of the block's output: the encoder features `cos x_q · cos θ_q` of one token, through the
    first layer (`w1 q f`, bias `b1 f`), the rectifier, and one column `w2 f` of the second layer with its
    bias entry `b2`. The rectifier's zero is kept as the float word it is printed as. -/
def row (xs θ : Fin 8 → EReal) (w1 : Fin 8 → Fin 4096 → EReal) (b1 w2 : Fin 4096 → EReal) (b2 : EReal) : EReal :=
  (∑ f : Fin 4096, max ((∑ q : Fin 8, Ideal.cos (xs q) * Ideal.cos (θ q) * w1 q f) + b1 f)
      (Ideal.ofBits .f32 0x00000000#32) * w2 f) + b2

/-- The block over the arrays the kernel's region reads: the tokens flattened to 32768 rows of their first
    eight features, the first layer's weights as [8, 4096], the second layer's as [4096, 1024]. Element
    `(r, e)` is `row` of row `r` and column `e`. -/
def rows (xq : (⟨2, ![32768, 8]⟩ : Shape).Idx → EReal) (θ : (⟨1, ![8]⟩ : Shape).Idx → EReal)
    (w1t : (⟨2, ![8, 4096]⟩ : Shape).Idx → EReal) (b1 : (⟨1, ![4096]⟩ : Shape).Idx → EReal)
    (w2t : (⟨2, ![4096, 1024]⟩ : Shape).Idx → EReal) (b2 : (⟨1, ![1024]⟩ : Shape).Idx → EReal) :
    (⟨2, ![32768, 1024]⟩ : Shape).Idx → EReal := fun i =>
  row (fun q => xq (ix2 (i 0 : Fin 32768) q)) (fun q => θ (ix1 q)) (fun q f => w1t (ix2 q f)) (fun f => b1 (ix1 f))
    (fun f => w2t (ix2 f (i 1 : Fin 1024))) (b2 (ix1 (i 1 : Fin 1024)))

/-- The block over the program's own arguments: `x` as [8, 4096, 1024] (only the first eight features of a
    token are read), `W1` as [4096, 8], `W2` as [1024, 4096]. Element `(b, s, e)` is `row` of token `(b, s)`
    and output feature `e`. -/
def tokens (x : (⟨3, ![8, 4096, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![8, 4096, 1024]⟩ : Shape).Idx → EReal := fun i =>
  row (fun q => x (ix3 (i 0 : Fin 8) (i 1 : Fin 4096) (Fin.castLE (by decide : 8 ≤ 1024) q))) (fun q => θ (ix1 q))
    (fun q f => W1 (ix2 f q)) (fun f => b1 (ix1 f)) (fun f => W2 (ix2 (i 2 : Fin 1024) f)) (b2 (ix1 (i 2 : Fin 1024)))

end Cert.Ffn

end
-- ==== Proof.RefRow.lean ====
/-
  The reference program's last stage, read one element at a time, is the feed-forward block over the
  program's own arguments: element (b, s, e) is
      (∑ f, max ((∑ q, cos x_{b,s,q} · cos θ_q · W1_{f,q}) + b1_f) 0 · W2_{e,f}) + b2_e.
  The stages read their operands through composed index functions; each composition is identified with the
  index the specification builds from coordinates, and then the two sides are the same sums term by term.
-/
import proofs.«136966_j65481071409701_1_alg».proof.Proof.Gen.ReferenceIdeal.Read
import proofs.«136966_j65481071409701_1_alg».proof.Proof.FfnRow

noncomputable section

namespace Cert.ReferenceIdeal.Stage

open Cert.ReferenceIdeal Cert.ReferenceIdeal.Gen Cert.ReferenceIdeal.Read Idealize.ShloMosaic Idealize.ShloMosaic.ValueIdx

/-- The token's feature q is read at (b, s, q) of x: only the first eight of the 1024 features. -/
theorem idx_x (i : S8x4096x1024.Idx) (f : Fin 4096) (q : Fin 8) :
    idx_main_v0 (lidx_main_v6 (lidx_main_v11 i f) q)
      = ix3 (i 0 : Fin 8) (i 1 : Fin 4096) (Fin.castLE (by decide : 8 ≤ 1024) q) :=
  funext fun a => Fin.ext (by match a with | ⟨0, _⟩ => rfl | ⟨1, _⟩ => rfl | ⟨2, _⟩ => rfl)

/-- The angle of feature q is read at q, through both broadcasts. -/
theorem idx_theta (i : S8x4096x1024.Idx) (f : Fin 4096) (q : Fin 8) :
    idx_main_v3 (idx_main_v4 (lidx_main_v6 (lidx_main_v11 i f) q)) = ix1 q :=
  funext fun a => Fin.ext (by match a with | ⟨0, _⟩ => rfl)

/-- The first layer's weight is read at (f, q). -/
theorem idx_w1 (i : S8x4096x1024.Idx) (f : Fin 4096) (q : Fin 8) :
    ridx_main_v6 (lidx_main_v11 i f) q = ix2 f q :=
  funext fun a => Fin.ext (by match a with | ⟨0, _⟩ => rfl | ⟨1, _⟩ => rfl)

/-- The first layer's bias is read at f, through both broadcasts. -/
theorem idx_b1 (i : S8x4096x1024.Idx) (f : Fin 4096) :
    idx_main_v7 (idx_main_v8 (lidx_main_v11 i f)) = ix1 f :=
  funext fun a => Fin.ext (by match a with | ⟨0, _⟩ => rfl)

/-- The second layer's weight is read at (e, f). -/
theorem idx_w2 (i : S8x4096x1024.Idx) (f : Fin 4096) :
    ridx_main_v11 i f = ix2 (i 2 : Fin 1024) f :=
  funext fun a => Fin.ext (by match a with | ⟨0, _⟩ => rfl | ⟨1, _⟩ => rfl)

/-- The second layer's bias is read at e, through both broadcasts. -/
theorem idx_b2 (i : S8x4096x1024.Idx) :
    idx_main_v12 (idx_main_v13 i) = ix1 (i 2 : Fin 1024) :=
  funext fun a => Fin.ext (by match a with | ⟨0, _⟩ => rfl)

/-- The reference's last stage is the feed-forward block over the program's arguments. -/
theorem stage_eq_tokens (x0 : (⟨S8x4096x1024, .f32⟩ : BufTy).Contents (Elt Ideal)) (x1 : (⟨S8, .f32⟩ : BufTy).Contents (Elt Ideal)) (x2 : (⟨S4096x8, .f32⟩ : BufTy).Contents (Elt Ideal)) (x3 : (⟨S4096, .f32⟩ : BufTy).Contents (Elt Ideal)) (x4 : (⟨S1024x4096, .f32⟩ : BufTy).Contents (Elt Ideal)) (x5 : (⟨S1024, .f32⟩ : BufTy).Contents (Elt Ideal)) :
    val_main_v14 (F := Ideal) x0 x1 x2 x3 x4 x5 = Cert.Ffn.tokens x0 x1 x2 x3 x4 x5 := by
  funext i
  unfold Cert.Ffn.tokens Cert.Ffn.row
  rw [val_main_v14_apply, val_main_v11_apply, val_main_v13_apply, val_main_v12_apply]
  simp only [val_main_v10_apply, val_main_v9_apply, val_main_v6_apply, val_main_v8_apply, val_main_v7_apply,
    val_main_call0_v0_apply, val_main_call0_cst_apply, val_main_v5_apply, val_main_v1_apply, val_main_v0_apply,
    val_main_v4_apply, val_main_v3_apply, val_main_v2_apply]
  simp only [idx_x, idx_theta, idx_w1, idx_b1, idx_w2, idx_b2]
  simp only [Ideal.hostUnary_cos_def, Ideal.mulf_def, Ideal.addf_def, Ideal.maximumf_def, Ideal.ofBits_def]
  rfl

end Cert.ReferenceIdeal.Stage

end
-- ==== Proof.RegionInputs.lean ====
/-
  The arrays the kernel's region is launched on, read back to the program's arguments.

  Before the region the program flattens `x` from [8, 4096, 1024] to [32768, 1024] and keeps the first eight
  columns, and transposes each weight matrix (the change of float format that follows each transpose is the
  identity on the extended reals). So row `b · 4096 + s` of the flattened features is token `(b, s)`, entry
  `(q, f)` of the first layer's region array is `W1 (f, q)`, and entry `(f, e)` of the second layer's is
  `W2 (e, f)`. With these three readings the row-wise value `Ffn.rows` of the region's arrays at row
  `b · 4096 + s` is `Ffn.tokens` of the arguments at token `(b, s)`.
-/
import proofs.«136966_j65481071409701_1_alg».proof.Proof.Gen.KernelIdeal.Frame
import proofs.«136966_j65481071409701_1_alg».proof.Proof.FfnRow
import Idealize.ShloMosaic.Lib.StableHlo.Run
import Idealize.ShloMosaic.Lib.Pipeline.Value
import Idealize.ShloMosaic.Lib.ValueIdx

set_option maxRecDepth 16384

noncomputable section

namespace Cert.KernelIdeal.Layout

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The flattened features as the region finds them: the first eight columns of `x` reshaped to 32768 rows. -/
theorem features_eq (c : Dev nD) :
    (V m c main_v1 : S32768x8.Idx → EReal)
      = extractStridedSlice S32768x8 ![0, 0]
          (shapeCast S32768x1024 (m ((c : Thread nD τ).loc main_arg0)) shapeCasts_S8x4096x1024_S32768x1024)
          slices_S32768x1024_S32768x8_0_0 := by
  show StableHlo.after hostOps0 (fun b => m (c, b)) (Proc.devRef .tc main_v1) = _
  after_results
  rfl

/-- Row `b · 4096 + s`, column `q` of the flattened features is feature `q` of token `(b, s)`. -/
theorem features_apply (c : Dev nD) (b : Fin 8) (s : Fin 4096) (q : Fin 8) (r : Fin 32768)
    (hr : r.val = b.val * 4096 + s.val) :
    (V m c main_v1 : S32768x8.Idx → EReal) (ix2 r q)
      = (m ((c : Thread nD τ).loc main_arg0) : S8x4096x1024.Idx → EReal) (ix3 b s (Fin.castLE (by decide : 8 ≤ 1024) q)) := by
  rw [features_eq]
  refine (extractStridedSlice_apply ![0, 0] _ slices_S32768x1024_S32768x8_0_0 (ix2 r q)
    (ix2 r (Fin.castLE (by decide : 8 ≤ 1024) q)) (fun a => match a with
      | ⟨0, _⟩ => by show r.val = 0 + r.val; omega
      | ⟨1, _⟩ => by show q.val = 0 + q.val; omega)).trans ?_
  refine shapeCast_apply _ shapeCasts_S8x4096x1024_S32768x1024 _ (ix3 b s (Fin.castLE (by decide : 8 ≤ 1024) q)) ?_
  rw [Shape.rowMajor_val_three, Shape.rowMajor_val_two]
  show (b.val * 4096 + s.val) * 1024 + q.val = r.val * 1024 + q.val
  rw [hr]

/-- The first layer's weights as the region finds them: `W1` transposed. -/
theorem weights1_eq (c : Dev nD) :
    (V m c main_v3 : S8x4096.Idx → EReal)
      = truncf (F := Ideal) .bf16 (transpose S8x4096 [1, 0] (m ((c : Thread nD τ).loc main_arg2) : FVec Ideal S4096x8 .f32)
          transposes_S4096x8_S8x4096_1_0) bitsLt_bf16_f32 := by
  show StableHlo.after hostOps0 (fun b => m (c, b)) (Proc.devRef .tc main_v3) = _
  after_results

theorem weights1_apply (c : Dev nD) (q : Fin 8) (f : Fin 4096) :
    (V m c main_v3 : S8x4096.Idx → EReal) (ix2 q f)
      = (m ((c : Thread nD τ).loc main_arg2) : S4096x8.Idx → EReal) (ix2 f q) := by
  rw [weights1_eq]
  show transpose S8x4096 [1, 0] (m ((c : Thread nD τ).loc main_arg2) : FVec Ideal S4096x8 .f32) transposes_S4096x8_S8x4096_1_0 (ix2 q f) = _
  exact transpose_apply [1, 0] _ transposes_S4096x8_S8x4096_1_0 (ix2 q f) (ix2 f q) (fun a => match a with
    | ⟨0, _⟩ => rfl
    | ⟨1, _⟩ => rfl)

/-- The second layer's weights as the region finds them: `W2` transposed. -/
theorem weights2_eq (c : Dev nD) :
    (V m c main_v5 : S4096x1024.Idx → EReal)
      = truncf (F := Ideal) .bf16 (transpose S4096x1024 [1, 0] (m ((c : Thread nD τ).loc main_arg4) : FVec Ideal S1024x4096 .f32)
          transposes_S1024x4096_S4096x1024_1_0) bitsLt_bf16_f32 := by
  show StableHlo.after hostOps0 (fun b => m (c, b)) (Proc.devRef .tc main_v5) = _
  after_results

theorem weights2_apply (c : Dev nD) (f : Fin 4096) (e : Fin 1024) :
    (V m c main_v5 : S4096x1024.Idx → EReal) (ix2 f e)
      = (m ((c : Thread nD τ).loc main_arg4) : S1024x4096.Idx → EReal) (ix2 e f) := by
  rw [weights2_eq]
  show transpose S4096x1024 [1, 0] (m ((c : Thread nD τ).loc main_arg4) : FVec Ideal S1024x4096 .f32) transposes_S1024x4096_S4096x1024_1_0 (ix2 f e) = _
  exact transpose_apply [1, 0] _ transposes_S1024x4096_S4096x1024_1_0 (ix2 f e) (ix2 e f) (fun a => match a with
    | ⟨0, _⟩ => rfl
    | ⟨1, _⟩ => rfl)

/-- The row-wise value of the region's arrays at row `b · 4096 + s`, column `e`, is the block's value of the
    arguments at token `(b, s)`, output feature `e`. -/
theorem rows_eq_tokens (c : Dev nD) (b : Fin 8) (s : Fin 4096) (e : Fin 1024) (r : Fin 32768)
    (hr : r.val = b.val * 4096 + s.val) :
    Cert.Ffn.rows (V m c main_v1) (V m c main_arg1) (V m c main_v3) (V m c main_arg3) (V m c main_v5) (V m c main_arg5)
        (ix2 r e)
      = Cert.Ffn.tokens (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (ix3 b s e) := by
  have hx : (fun q : Fin 8 => (V m c main_v1 : S32768x8.Idx → EReal) (ix2 r q))
      = fun q => (m ((c : Thread nD τ).loc main_arg0) : S8x4096x1024.Idx → EReal) (ix3 b s (Fin.castLE (by decide : 8 ≤ 1024) q)) :=
    funext fun q => features_apply m c b s q r hr
  have h1 : (fun (q : Fin 8) (f : Fin 4096) => (V m c main_v3 : S8x4096.Idx → EReal) (ix2 q f))
      = fun q f => (m ((c : Thread nD τ).loc main_arg2) : S4096x8.Idx → EReal) (ix2 f q) :=
    funext fun q => funext fun f => weights1_apply m c q f
  have h2 : (fun f : Fin 4096 => (V m c main_v5 : S4096x1024.Idx → EReal) (ix2 f e))
      = fun f => (m ((c : Thread nD τ).loc main_arg4) : S1024x4096.Idx → EReal) (ix2 e f) :=
    funext fun f => weights2_apply m c f e
  show Cert.Ffn.row (fun q : Fin 8 => (V m c main_v1 : S32768x8.Idx → EReal) (ix2 r q))
      (fun q : Fin 8 => (V m c main_arg1 : S8.Idx → EReal) (ix1 q))
      (fun (q : Fin 8) (f : Fin 4096) => (V m c main_v3 : S8x4096.Idx → EReal) (ix2 q f))
      (fun f : Fin 4096 => (V m c main_arg3 : S4096.Idx → EReal) (ix1 f))
      (fun f : Fin 4096 => (V m c main_v5 : S4096x1024.Idx → EReal) (ix2 f e))
      ((V m c main_arg5 : S1024.Idx → EReal) (ix1 e))
    = Cert.Ffn.row (fun q : Fin 8 => (m ((c : Thread nD τ).loc main_arg0) : S8x4096x1024.Idx → EReal) (ix3 b s (Fin.castLE (by decide : 8 ≤ 1024) q)))
      (fun q : Fin 8 => (m ((c : Thread nD τ).loc main_arg1) : S8.Idx → EReal) (ix1 q))
      (fun (q : Fin 8) (f : Fin 4096) => (m ((c : Thread nD τ).loc main_arg2) : S4096x8.Idx → EReal) (ix2 f q))
      (fun f : Fin 4096 => (m ((c : Thread nD τ).loc main_arg3) : S4096.Idx → EReal) (ix1 f))
      (fun f : Fin 4096 => (m ((c : Thread nD τ).loc main_arg4) : S1024x4096.Idx → EReal) (ix2 e f))
      ((m ((c : Thread nD τ).loc main_arg5) : S1024.Idx → EReal) (ix1 e))
  rw [hx, h1, h2, V_main_arg1, V_main_arg3, V_main_arg5]

end Cert.KernelIdeal.Layout

end
-- ==== Proof.BodyRow.lean ====
/-
  The kernel body's arithmetic, one output element at a time.

  The body's value `k0_pay1` is a [512, 1024] block computed from a [512, 8] block of tokens `x`, the eight
  angles `θ`, the first layer's weights [8, 4096] and bias, the second layer's weights [4096, 1024] and bias:
  the encoder features `cos x · cos θ` (the angles laid out as one row and repeated down the 512 rows), their
  product with the first layer's weights plus the repeated bias row, the rectifier, the product with the second
  layer's weights plus the repeated second bias row. On the extended reals the changes of format are the identity
  and a product into a zero accumulator is the plain sum over the contracted axis, so that the element at
  `(p, e)` is

      (∑ f, max ((∑ q, cos x_{p,q} · cos θ_q · W1_{q,f}) + b1_f) 0 · W2_{f,e}) + b2_e,

  which is `Cert.Ffn.row` of row `p` of the tokens and column `e` of the second layer (`pay_row`).
  Each product is read at an index through the bijection between its one-axis contraction index and `Fin 8`
  / `Fin 4096` (`first_apply`, `second_apply`); a vector cast to one row and repeated down the rows reads the
  vector at the column (`row_repeat_apply`).
-/
import proofs.«136966_j65481071409701_1_alg».proof.Proof.Gen.KernelIdeal.Skeleton
import proofs.«136966_j65481071409701_1_alg».proof.Proof.FfnRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.SL.Sem

/-! ## The first product (rows of eight encoder features against the first layer's weights)

The operand indices of the product at output index `i` and contraction position `q`, axis by axis. -/

theorem lhs_first_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
theorem lhs_first_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
theorem rhs_first_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
theorem rhs_first_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

/-- The first product into a zero accumulator, read at `(p, f)`: the sum over the eight features. -/
theorem first_apply (a : FVec Ideal S512x8 .bf16) (b : FVec Ideal S8x4096 .bf16) (p : Fin 512) (f : Fin 4096) :
    matmul dot_S512x8_S8x4096_S512x4096_1_0_0_1_n_n none a b (constant (F := Ideal) S512x4096 .f32 0x00000000#32) (ix2 p f)
      = ∑ q : Fin 8, a (ix2 p q) * b (ix2 q f) := by
  show FloatOps.matmul dot_S512x8_S8x4096_S512x4096_1_0_0_1_n_n none a b (constant (F := Ideal) S512x4096 .f32 0x00000000#32) (ix2 p f) = _
  rw [Ideal.matmul_constant_zero_apply, ← Equiv.sum_comp (ValueIdx.contrEquiv1 dot_S512x8_S8x4096_S512x4096_1_0_0_1_n_n 8 rfl rfl).symm]
  refine Finset.sum_congr rfl fun k _ => ?_
  have hk := ValueIdx.contrEquiv1_symm_val dot_S512x8_S8x4096_S512x4096_1_0_0_1_n_n 8 rfl rfl k
  have el : dot_S512x8_S8x4096_S512x4096_1_0_0_1_n_n.lhsIdx (ix2 p f) ((ValueIdx.contrEquiv1 dot_S512x8_S8x4096_S512x4096_1_0_0_1_n_n 8 rfl rfl).symm k) = ix2 p k := funext fun c => Fin.ext (by
    match c with
    | ⟨0, _⟩ => exact lhs_first_0 _ _
    | ⟨1, _⟩ => exact (lhs_first_1 _ _).trans hk)
  have er : dot_S512x8_S8x4096_S512x4096_1_0_0_1_n_n.rhsIdx (ix2 p f) ((ValueIdx.contrEquiv1 dot_S512x8_S8x4096_S512x4096_1_0_0_1_n_n 8 rfl rfl).symm k) = ix2 k f := funext fun c => Fin.ext (by
    match c with
    | ⟨0, _⟩ => exact (rhs_first_0 _ _).trans hk
    | ⟨1, _⟩ => exact rhs_first_1 _ _)
  rw [el, er]

/-! ## The second product (rows of 4096 rectified units against the second layer's weights)

The operand indices of the product at output index `i` and contraction position `q`, axis by axis. -/

theorem lhs_second_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_second_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_second_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_second_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The second product into a zero accumulator, read at `(p, e)`: the sum over the 4096 units. -/
theorem second_apply (a : FVec Ideal S512x4096 .bf16) (b : FVec Ideal S4096x1024 .bf16) (p : Fin 512) (e : Fin 1024) :
    matmul dot_S512x4096_S4096x1024_S512x1024_1_0_0_1_n_n none a b (constant (F := Ideal) S512x1024 .f32 0x00000000#32) (ix2 p e)
      = ∑ f : Fin 4096, a (ix2 p f) * b (ix2 f e) := by
  show FloatOps.matmul dot_S512x4096_S4096x1024_S512x1024_1_0_0_1_n_n none a b (constant (F := Ideal) S512x1024 .f32 0x00000000#32) (ix2 p e) = _
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p e) ((ValueIdx.contrEquiv1 dot_S512x4096_S4096x1024_S512x1024_1_0_0_1_n_n 4096 rfl rfl).symm k) = ix2 p k := funext fun c => Fin.ext (by
    match c with
    | ⟨0, _⟩ => exact lhs_second_0 _ _
    | ⟨1, _⟩ => exact (lhs_second_1 _ _).trans hk)
  have er : dot_S512x4096_S4096x1024_S512x1024_1_0_0_1_n_n.rhsIdx (ix2 p e) ((ValueIdx.contrEquiv1 dot_S512x4096_S4096x1024_S512x1024_1_0_0_1_n_n 4096 rfl rfl).symm k) = ix2 k e := funext fun c => Fin.ext (by
    match c with
    | ⟨0, _⟩ => exact (rhs_second_0 _ _).trans hk
    | ⟨1, _⟩ => exact rhs_second_1 _ _)
  rw [el, er]

/-! ## A vector laid out as one row and repeated down the rows -/

/-- A length-`n` vector cast to `[1, n]` and broadcast to `[m, n]` reads, at `(p, c)`, the vector at `c`. -/
theorem row_repeat_apply {α : Type} {m n : ℕ} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (c : Fin n) :
    broadcastTo ⟨2, ![m, n]⟩ (shapeCast ⟨2, ![1, n]⟩ v h1) h2 (ix2 p c) = v (ix1 c) := by
  rw [broadcastTo_1b_ab_apply, shapeCast_a_1a_apply]

/-- The cosine of a vector reads, at an index, the cosine of the element there. -/
theorem cos_apply {s : Shape} {φ : FTy} (a : FVec Ideal s φ) (i : s.Idx) : cos a i = Ideal.cos (a i) := rfl

/-! ## The body's element is the block's element -/

/-- The body's value at `(p, e)` is the feed-forward block's element for row `p` of the tokens and column `e` of
    the second layer's weights. -/
theorem pay_row (x0 : Vec Ideal S512x8 .f32) (x1 : Vec Ideal S8 .f32) (x2 : Vec Ideal S8x4096 .bf16) (x3 : Vec Ideal S4096 .f32) (x4 : Vec Ideal S4096x1024 .bf16) (x5 : Vec Ideal S1024 .f32) (p : Fin 512) (e : Fin 1024) :
    k0_pay1 (F := Ideal) x0 x1 x2 x3 x4 x5 (ix2 p e)
      = Cert.Ffn.row (fun q => x0 (ix2 p q)) (fun q => x1 (ix1 q)) (fun q f => x2 (ix2 q f)) (fun f => x3 (ix1 f)) (fun f => x4 (ix2 f e)) (x5 (ix1 e)) := by
  unfold k0_pay1 Cert.Ffn.row
  simp only [addf_apply, second_apply, first_apply, row_repeat_apply, truncf_apply, maximumf_apply, mulf_apply, cos_apply, broadcast_apply, shapeCast_self, Ideal.ofBits_def]

end Cert.KernelIdeal.Body

end
-- ==== Proof.RegionArray.lean ====
/-
  From the region's blocks to its output array.

  The region runs 64 grid points; point `t` reads rows `512·t … 512·t + 511` of the flattened features and the
  whole of every other input, and writes back rows `512·t … 512·t + 511` of the output. The body's arithmetic at
  element `(p, e)` of the block is `Ffn.row` of row `p` of the feature block and column `e` of the second layer's
  weights, so what point `t` writes back is block `t` of ONE whole-array function, `Ffn.rows` of the arrays the
  region is launched on. The 64 blocks tile the 32768 rows, so after the run the output array IS that function.
-/
import proofs.«136966_j65481071409701_1_alg».proof.Proof.Gen.KernelIdeal.Frame
import proofs.«136966_j65481071409701_1_alg».proof.Proof.FfnRow
import proofs.«136966_j65481071409701_1_alg».proof.Proof.BodyRow
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

theorem off2_zero : (![0, 0] : Fin 2 → Nat) = fun _ => 0 := funext fun a => by fin_cases a <;> rfl
theorem off1_zero : (![0] : Fin 1 → Nat) = fun _ => 0 := funext fun a => by fin_cases a <;> rfl

/-- The printed index maps over the grid: the feature window and the output window are at block row `t`, block
    column `0`; every other window stays at block `0`. -/
theorem index_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 64 := t.isLt

/-- Row `p` of point `t`'s block is row `512·t + p` of the array. -/
def rowOf (t : Fin cfg0.N) (p : Fin 512) : Fin 32768 := ⟨t.val * 512 + p.val, by have := point_lt t; have := p.isLt; omega⟩

/-! ## Each window's block, read where it lies in its array -/

theorem features_block (c : Dev nD) (t : Fin cfg0.N) (p : Fin 512) (q : Fin 8) :
    (iblk m c 0 t : S512x8.Idx → EReal) (ix2 p q) = (V m c main_v1 : S32768x8.Idx → EReal) (ix2 (rowOf t p) q) := by
  obtain ⟨e0, e1, -⟩ := index_facts t
  show (V m c main_v1 : S32768x8.Idx → EReal) (((cfg0.win 0).blk t).view.emb (ix2 p q)) = _
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 8 + 1 * q.val = q.val; omega

theorem angles_block (c : Dev nD) (t : Fin cfg0.N) (q : Fin 8) :
    (iblk m c 1 t : S8.Idx → EReal) (ix1 q) = (V m c main_arg1 : S8.Idx → EReal) (ix1 q) := by
  obtain ⟨-, -, e2, -⟩ := index_facts t
  show (V m c main_arg1 : S8.Idx → EReal) (((cfg0.win 1).blk t).view.emb (ix1 q)) = _
  refine congrArg _ (funext fun a => Fin.ext ?_)
  match a with
  | ⟨0, _⟩ => show win0_1.index t (0 : Fin 1) * 8 + 1 * q.val = q.val; omega

theorem weights1_block (c : Dev nD) (t : Fin cfg0.N) (q : Fin 8) (f : Fin 4096) :
    (iblk m c 2 t : S8x4096.Idx → EReal) (ix2 q f) = (V m c main_v3 : S8x4096.Idx → EReal) (ix2 q f) := by
  obtain ⟨-, -, -, e3, e4, -⟩ := index_facts t
  show (V m c main_v3 : S8x4096.Idx → EReal) (((cfg0.win 2).blk t).view.emb (ix2 q f)) = _
  refine congrArg _ (funext fun a => Fin.ext ?_)
  match a with
  | ⟨0, _⟩ => show win0_2.index t (0 : Fin 2) * 8 + 1 * q.val = q.val; omega
  | ⟨1, _⟩ => show win0_2.index t (1 : Fin 2) * 4096 + 1 * f.val = f.val; omega

theorem bias1_block (c : Dev nD) (t : Fin cfg0.N) (f : Fin 4096) :
    (iblk m c 3 t : S4096.Idx → EReal) (ix1 f) = (V m c main_arg3 : S4096.Idx → EReal) (ix1 f) := by
  obtain ⟨-, -, -, -, -, e5, -⟩ := index_facts t
  show (V m c main_arg3 : S4096.Idx → EReal) (((cfg0.win 3).blk t).view.emb (ix1 f)) = _
  refine congrArg _ (funext fun a => Fin.ext ?_)
  match a with
  | ⟨0, _⟩ => show win0_3.index t (0 : Fin 1) * 4096 + 1 * f.val = f.val; omega

theorem weights2_block (c : Dev nD) (t : Fin cfg0.N) (f : Fin 4096) (e : Fin 1024) :
    (iblk m c 4 t : S4096x1024.Idx → EReal) (ix2 f e) = (V m c main_v5 : S4096x1024.Idx → EReal) (ix2 f e) := by
  obtain ⟨-, -, -, -, -, -, e6, e7, -⟩ := index_facts t
  show (V m c main_v5 : S4096x1024.Idx → EReal) (((cfg0.win 4).blk t).view.emb (ix2 f e)) = _
  refine congrArg _ (funext fun a => Fin.ext ?_)
  match a with
  | ⟨0, _⟩ => show win0_4.index t (0 : Fin 2) * 4096 + 1 * f.val = f.val; omega
  | ⟨1, _⟩ => show win0_4.index t (1 : Fin 2) * 1024 + 1 * e.val = e.val; omega

theorem bias2_block (c : Dev nD) (t : Fin cfg0.N) (e : Fin 1024) :
    (iblk m c 5 t : S1024.Idx → EReal) (ix1 e) = (V m c main_arg5 : S1024.Idx → EReal) (ix1 e) := by
  obtain ⟨-, -, -, -, -, -, -, -, e8, -⟩ := index_facts t
  show (V m c main_arg5 : S1024.Idx → EReal) (((cfg0.win 5).blk t).view.emb (ix1 e)) = _
  refine congrArg _ (funext fun a => Fin.ext ?_)
  match a with
  | ⟨0, _⟩ => show win0_5.index t (0 : Fin 1) * 1024 + 1 * e.val = e.val; omega

/-- Element `(p, e)` of the output window's block at point `t` lies at `(512·t + p, e)` of the output array. -/
theorem out_emb (t : Fin cfg0.N) (p : Fin 512) (e : Fin 1024) :
    ((cfg0.win 6).blk t).view.emb (ix2 p e) = (ix2 (rowOf t p) e : S32768x1024.Idx) := by
  obtain ⟨-, -, -, -, -, -, -, -, -, e9, e10⟩ := index_facts t
  refine funext fun a => Fin.ext ?_
  match a with
  | ⟨0, _⟩ => show win0_6.index t (0 : Fin 2) * 512 + 1 * p.val = t.val * 512 + p.val; omega
  | ⟨1, _⟩ => show win0_6.index t (1 : Fin 2) * 1024 + 1 * e.val = e.val; omega

/-! ## What a point writes back, and the array after the run -/

/-- The whole-array function the output ends holding: `Ffn.rows` of the arrays the region is launched on. -/
abbrev result (c : Dev nD) : S32768x1024.Idx → EReal :=
  Cert.Ffn.rows (V m c main_v1) (V m c main_arg1) (V m c main_v3) (V m c main_arg3) (V m c main_v5) (V m c main_arg5)

/-- What point `t` writes back is block `t` of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero off2_zero]
  simp only [View.ld_unit_zero (S := S512x8) off2_zero, View.ld_unit_zero (S := S8) off1_zero,
    View.ld_unit_zero (S := S8x4096) off2_zero, View.ld_unit_zero (S := S4096) off1_zero,
    View.ld_unit_zero (S := S4096x1024) off2_zero, View.ld_unit_zero (S := S1024) off1_zero]
  funext j
  obtain ⟨p, e, rfl⟩ : ∃ (p : Fin 512) (e : Fin 1024), j = ix2 p e := ⟨j 0, j 1, eq_ix2 j⟩
  show k0_pay1 (F := Ideal) (iblk m c 0 t) (iblk m c 1 t) (iblk m c 2 t) (iblk m c 3 t) (iblk m c 4 t) (iblk m c 5 t) (ix2 p e)
    = result m c (((cfg0.win 6).blk t).view.emb (ix2 p e))
  rw [out_emb]
  refine (Cert.KernelIdeal.Body.pay_row (iblk m c 0 t) (iblk m c 1 t) (iblk m c 2 t) (iblk m c 3 t) (iblk m c 4 t) (iblk m c 5 t) p e).trans ?_
  have hx : (fun q : Fin 8 => (iblk m c 0 t : S512x8.Idx → EReal) (ix2 p q))
      = fun q => (V m c main_v1 : S32768x8.Idx → EReal) (ix2 (rowOf t p) q) := funext fun q => features_block m c t p q
  have hθ : (fun q : Fin 8 => (iblk m c 1 t : S8.Idx → EReal) (ix1 q))
      = fun q => (V m c main_arg1 : S8.Idx → EReal) (ix1 q) := funext fun q => angles_block m c t q
  have h1 : (fun (q : Fin 8) (f : Fin 4096) => (iblk m c 2 t : S8x4096.Idx → EReal) (ix2 q f))
      = fun q f => (V m c main_v3 : S8x4096.Idx → EReal) (ix2 q f) := funext fun q => funext fun f => weights1_block m c t q f
  have hb1 : (fun f : Fin 4096 => (iblk m c 3 t : S4096.Idx → EReal) (ix1 f))
      = fun f => (V m c main_arg3 : S4096.Idx → EReal) (ix1 f) := funext fun f => bias1_block m c t f
  have h2 : (fun f : Fin 4096 => (iblk m c 4 t : S4096x1024.Idx → EReal) (ix2 f e))
      = fun f => (V m c main_v5 : S4096x1024.Idx → EReal) (ix2 f e) := funext fun f => weights2_block m c t f e
  rw [hx, hθ, h1, hb1, h2, bias2_block m c t e]
  rfl

/-- An index of the output array is in point `t`'s block iff its row is in `512·t … 512·t + 511`. -/
theorem mem_block (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6).slice (win0_6.rect t)).set ↔ _
  rw [View.set_slice_whole, Rect.mem_set_unit]
  exact Iff.rfl

/-- Every index of the output array is in some point's block: row `r` in point `r / 512`'s. -/
theorem cover (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  let t : Fin cfg0.N := ⟨(i 0).val / 512, by show (i 0).val / 512 < 64; omega⟩
  obtain ⟨-, -, -, -, -, -, -, -, -, e9, e10⟩ := index_facts t
  have ht : t.val = (i 0).val / 512 := rfl
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The output array after the run is `result`. -/
theorem final (c : Dev nD) : (dats m 0 c).arrAt 6 cfg0.N = result m c :=
  (dats m 0 c).arrAt_eq_of_cover 6 (result m c) (fun t _ => flushed_eq m c t) cover

end Cert.KernelIdeal.Region

end
-- ==== Proof.KernelRun.lean ====
/-
  The kernel program's run, read as a value.

  After the region the program reshapes the output array from [32768, 1024] back to [8, 4096, 1024], so element
  `(b, s, e)` of the result is element `(b · 4096 + s, e)` of the region's output array. That array is the row-wise
  block value of the arrays the region was launched on, and row `b · 4096 + s` of those is token `(b, s)` of the
  arguments: the result is `Ffn.tokens` of the program's arguments. The run's other clauses say the arguments are
  unchanged.
-/
import proofs.«136966_j65481071409701_1_alg».proof.Proof.Gen.KernelIdeal.Frame
import proofs.«136966_j65481071409701_1_alg».proof.Proof.FfnRow
import proofs.«136966_j65481071409701_1_alg».proof.Proof.RegionInputs
import proofs.«136966_j65481071409701_1_alg».proof.Proof.RegionArray
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The block's value of the program's arguments. -/
abbrev value (c : Dev nD) : S8x4096x1024.Idx → EReal :=
  Cert.Ffn.tokens (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- Token `(b, s)` is row `b · 4096 + s` of the flattened arrays. -/
def flatRow (b : Fin 8) (s : Fin 4096) : Fin 32768 := ⟨b.val * 4096 + s.val, by have := b.isLt; have := s.isLt; omega⟩

/-- What the result buffer holds after the reshape that follows the region. -/
theorem result_eq (c : Dev nD) :
    (Pipeline.afterTail₀ cfgs (dats m) 0 (V0 m) [hostOps1] c main_v7 : S8x4096x1024.Idx → EReal) = value m c := by
  unfold Pipeline.afterTail₀
  show StableHlo.after hostOps1 _ (Proc.devRef .tc main_v7) = _
  after_results
  have harr : (Pipeline.withArrays (cfgs 0).spec c (V0 m c) (fun w => (dats m 0 c).arrAt w (cfgs 0).N)
      (Proc.devRef .tc main_v6) : S32768x1024.Idx → EReal) = Cert.KernelIdeal.Region.result m c :=
    (Pipeline.withArrays_arr spec0 launch0.win.arr_inj c _ _ 6).trans (Cert.KernelIdeal.Region.final m c)
  funext i
  obtain ⟨b, s, e, rfl⟩ : ∃ (b : Fin 8) (s : Fin 4096) (e : Fin 1024), i = ix3 b s e := ⟨i 0, i 1, i 2, eq_ix3 i⟩
  show shapeCast S8x4096x1024 (Pipeline.withArrays (cfgs 0).spec c (V0 m c) (fun w => (dats m 0 c).arrAt w (cfgs 0).N)
      (Proc.devRef .tc main_v6) : S32768x1024.Idx → EReal) shapeCasts_S32768x1024_S8x4096x1024 (ix3 b s e) = _
  rw [harr]
  refine (shapeCast_apply _ shapeCasts_S32768x1024_S8x4096x1024 (ix3 b s e) (ix2 (flatRow b s) e) ?_).trans ?_
  · rw [Shape.rowMajor_val_two, Shape.rowMajor_val_three]
    rfl
  · exact Cert.KernelIdeal.Layout.rows_eq_tokens m c b s e (flatRow b s) rfl

/-- Every weakly fair execution of the kernel program terminates with the result at the block's value of the
    arguments and the arguments unchanged. -/
theorem run : θ_run defs (onTc (τ := τ) (main (F := Ideal))) ⟨m, fun _ => 0, ρ⟩ fun r => ∀ c : Dev nD,
      r.2.mem ((c.tc : Thread nD τ).loc main_v7) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Whole

end
-- ==== Proof.lean ====
/-
  The feed-forward block: a Pallas kernel against its jnp reference, equal over the extended reals.

  Both programs compute, for every token `(b, s)` and output feature `e`,

      (∑ f, max ((∑ q, cos x_{b,s,q} · cos θ_q · W1_{f,q}) + b1_f) 0 · W2_{e,f}) + b2_e,

  the same sums in the same order of operations (`Cert.Ffn.row`, Proof/FfnRow.lean), so no algebraic law is
  needed and the precondition is never opened. The kernel flattens the tokens to 32768 rows, transposes the
  weight matrices, runs 64 blocks of 512 rows and reshapes back; the changes of float format it makes on the way
  are the identity on the extended reals, and a matrix product into a zero accumulator is the plain sum.
  The reference's last stage is that value (Proof/RefRow.lean, over the generated run and its read-at-an-index
  lemmas); the kernel body's arithmetic at an element is that value (Proof/BodyRow.lean); the region's output
  array is the row-wise value of the arrays it is launched on (Proof/RegionArray.lean), which read back to the
  arguments (Proof/RegionInputs.lean); the reshape after the region gives the result (Proof/KernelRun.lean).
  The three frames are the generated ones (the reference's is its generated run with the value dropped), and no
  rewrite was applied in the idealization, so its soundness statement is trivial.
-/
import proofs.«136966_j65481071409701_1_alg».proof.Defs
import proofs.«136966_j65481071409701_1_alg».proof.Proof.Gen.Kernel
import proofs.«136966_j65481071409701_1_alg».proof.Proof.Gen.Kernel.Skeleton
import proofs.«136966_j65481071409701_1_alg».proof.Proof.Gen.Kernel.Launch
import proofs.«136966_j65481071409701_1_alg».proof.Proof.Gen.Kernel.Points
import proofs.«136966_j65481071409701_1_alg».proof.Proof.Gen.Kernel.Frame
import proofs.«136966_j65481071409701_1_alg».proof.Proof.Gen.KernelIdeal
import proofs.«136966_j65481071409701_1_alg».proof.Proof.Gen.KernelIdeal.Skeleton
import proofs.«136966_j65481071409701_1_alg».proof.Proof.Gen.KernelIdeal.Launch
import proofs.«136966_j65481071409701_1_alg».proof.Proof.Gen.KernelIdeal.Points
import proofs.«136966_j65481071409701_1_alg».proof.Proof.Gen.KernelIdeal.Frame
import proofs.«136966_j65481071409701_1_alg».proof.Proof.Gen.ReferenceIdeal
import proofs.«136966_j65481071409701_1_alg».proof.Proof.Gen.Pre_finite_inputs
import proofs.«136966_j65481071409701_1_alg».proof.Proof.Gen.ReferenceIdeal.Run
import proofs.«136966_j65481071409701_1_alg».proof.Proof.Gen.ReferenceIdeal.Read
import proofs.«136966_j65481071409701_1_alg».proof.Proof.FfnRow
import proofs.«136966_j65481071409701_1_alg».proof.Proof.RefRow
import proofs.«136966_j65481071409701_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the block's value of those arguments. -/
theorem algebraic : Cert.algebraic_KernelIdeal_ReferenceIdeal := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Stage.stage_eq_tokens,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
